-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S5000x512 : Shape := ⟨2, ![5000, 512]⟩
abbrev S5000x256 : Shape := ⟨2, ![5000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 144
  | .vmem => 10
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x512, .bf16⟩
  | 11 => ⟨S512x256, .bf16⟩
  | 12 => ⟨S50000x256, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x256, .f32⟩
  | 58 => ⟨S850000x1, .f32⟩
  | 59 => ⟨S850000x256, .f32⟩
  | 60 => ⟨S850000x256, .f32⟩
  | 61 => ⟨S_, .f32⟩
  | 62 => ⟨S50000x256, .f32⟩
  | 63 => ⟨S850000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x256, .bf16⟩
  | 72 => ⟨S256x64, .bf16⟩
  | 73 => ⟨S50000x64, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x512, .f32⟩

abbrev hbmTy0_1 (i : Nat) : BufTy := match i % 128 with
  | 0 => ⟨S50000x64, .f32⟩
  | 1 => ⟨S_, .f32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x64, .f32⟩
  | 8 => ⟨S50000x64, .f32⟩
  | 9 => ⟨S50000x64, .f32⟩
  | 10 => ⟨S_, .f32⟩
  | 11 => ⟨S50000, .f32⟩
  | 12 => ⟨S50000x1, .f32⟩
  | 13 => ⟨S50000x1, .f32⟩
  | 14 => ⟨S50000x64, .f32⟩
  | 15 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .bf16⟩
  | .local _ .vmem, ⟨6, _⟩ => ⟨S5000x256, .bf16⟩
  | .local _ .vmem, ⟨7, _⟩ => ⟨S256x64, .bf16⟩
  | .local _ .vmem, ⟨8, _⟩ => ⟨S5000x64, .f32⟩
  | .local _ .vmem, ⟨9, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S5000x512_S512x256_S5000x256_1_0_0_1_n_n_wf : DotDims.WF S5000x512 S512x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v4) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x64, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x64, .f32⟩
  | 115 => ⟨S850000x1, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000, .f32⟩
  | 127 => ⟨S_, .f32⟩
  | _ => ⟨S50000x512, .f32⟩

abbrev hbmTy0_1 (i : Nat) : BufTy := match i % 128 with
  | 0 => ⟨S50000, .f32⟩
  | 1 => ⟨S50000, .f32⟩
  | 2 => ⟨S50000x1, .f32⟩
  | 3 => ⟨S50000x64, .f32⟩
  | 4 => ⟨S50000x64, .f32⟩
  | 5 => ⟨S50000x64, .f32⟩
  | 6 => ⟨S_, .f32⟩
  | 7 => ⟨S50000, .f32⟩
  | 8 => ⟨S50000x1, .f32⟩
  | 9 => ⟨S50000x1, .f32⟩
  | 10 => ⟨S50000x64, .f32⟩
  | 11 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The two dense transforms of the graph network, as whole-array functions over the extended reals.

  Layer one sends a feature array `x : [50000, 512]` and a weight array `w : [512, 256]` to
  `h[r, q] = ∑ k < 512, x[r, k] · w[k, q]`; layer two does the same with `[50000, 256]` features and
  `[256, 64]` weights. Nothing here mentions a program: both the tiled product of the kernel (ten row blocks of
  5000 rows, each block one product into a zero accumulator) and the reference's single contraction are shown
  elsewhere to be these functions. A sum over the contraction position is all there is to say, so no finiteness
  of the entries is needed: the extended reals' addition and multiplication are total, and the two sides are the
  same sum term by term.
-/
import Idealize.ShloMosaic.PureOps.Ideal
import Idealize.ShloMosaic.Lib.ValueIdx

noncomputable section

namespace Cert.Gcn

open Idealize.ShloMosaic

/-- Layer one: where entry `(r, q)` of the product reads the features at contraction position `k`: `(r, k)`. -/
abbrev featAt1 (i : (⟨2, ![50000, 256]⟩ : Shape).Idx) (k : Fin 512) : (⟨2, ![50000, 512]⟩ : Shape).Idx := fun a => match a with
  | ⟨0, _⟩ => ⟨(i 0).val, (i 0).isLt⟩
  | ⟨1, _⟩ => ⟨k.val, k.isLt⟩

/-- Layer one: where entry `(r, q)` of the product reads the weights at contraction position `k`: `(k, q)`. -/
abbrev wgtAt1 (i : (⟨2, ![50000, 256]⟩ : Shape).Idx) (k : Fin 512) : (⟨2, ![512, 256]⟩ : Shape).Idx := fun a => match a with
  | ⟨0, _⟩ => ⟨k.val, k.isLt⟩
  | ⟨1, _⟩ => ⟨(i 1).val, (i 1).isLt⟩

/-- Layer one's dense transform: `h[r, q] = ∑ k, x[r, k] · w[k, q]`. -/
def dense1 (x : (⟨2, ![50000, 512]⟩ : Shape).Idx → EReal) (w : (⟨2, ![512, 256]⟩ : Shape).Idx → EReal) :
    (⟨2, ![50000, 256]⟩ : Shape).Idx → EReal :=
  fun i => ∑ k : Fin 512, x (featAt1 i k) * w (wgtAt1 i k)

/-- Layer two: where entry `(r, q)` of the product reads the features at contraction position `k`: `(r, k)`. -/
abbrev featAt2 (i : (⟨2, ![50000, 64]⟩ : Shape).Idx) (k : Fin 256) : (⟨2, ![50000, 256]⟩ : Shape).Idx := fun a => match a with
  | ⟨0, _⟩ => ⟨(i 0).val, (i 0).isLt⟩
  | ⟨1, _⟩ => ⟨k.val, k.isLt⟩

/-- Layer two: where entry `(r, q)` of the product reads the weights at contraction position `k`: `(k, q)`. -/
abbrev wgtAt2 (i : (⟨2, ![50000, 64]⟩ : Shape).Idx) (k : Fin 256) : (⟨2, ![256, 64]⟩ : Shape).Idx := fun a => match a with
  | ⟨0, _⟩ => ⟨k.val, k.isLt⟩
  | ⟨1, _⟩ => ⟨(i 1).val, (i 1).isLt⟩

/-- Layer two's dense transform: `h[r, q] = ∑ k, x[r, k] · w[k, q]`. -/
def dense2 (x : (⟨2, ![50000, 256]⟩ : Shape).Idx → EReal) (w : (⟨2, ![256, 64]⟩ : Shape).Idx → EReal) :
    (⟨2, ![50000, 64]⟩ : Shape).Idx → EReal :=
  fun i => ∑ k : Fin 256, x (featAt2 i k) * w (wgtAt2 i k)

end Cert.Gcn

end
-- ==== Proof.Dense1.lean ====
/-
  Layer one's dense transform as the kernel computes it.

  The kernel walks the 50000 rows of the features in ten blocks of 5000; at block `t` it loads the rows
  `5000·t … 5000·t + 4999` of the features (all 512 columns) and the whole [512, 256] weight array, forms their
  product into a zero accumulator, and stores it as rows `5000·t … 5000·t + 4999` of the result. Over the extended
  reals a product into a zero accumulator is, entry by entry, the plain sum `∑ k, x[r, k] · w[k, q]`; row `r` of
  block `t` is row `5000·t + r` of the array and the weight block is the array itself, so block `t` of the result
  is block `t` of `Cert.Gcn.dense1` of the two arrays as the call finds them. The ten blocks tile the result
  (row `r` lies in block `r / 5000`), hence the array the call leaves is `dense1` of its two operands.
-/
import proofs.«153978_j61864708932307_1_alg».proof.Proof.Gen.KernelIdeal.Frame
import proofs.«153978_j61864708932307_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem
open Cert.KernelIdeal Cert.KernelIdeal.Gen Cert.Gcn
open Idealize.ShloMosaic.Pipeline (Dat Cfg Window)

-- the buffer contents the call is entered with
variable (V : (c : Dev nD) → (b : Ref sig .tc) → Buf (Elt Ideal) ((c : Thread nD τ).loc b))

/-- The feature array as the call finds it, entry by entry an extended real. -/
abbrev featArr (c : Dev nD) : S50000x512.Idx → EReal := V c main_v4
/-- The weight array as the call finds it. -/
abbrev wgtArr (c : Dev nD) : S512x256.Idx → EReal := V c main_v5

theorem off_zero : (![0, 0] : Fin 2 → Nat) = fun _ => 0 := funext fun a => by fin_cases a <;> rfl

/-! ## One block's product at an entry -/

/-- The block product's left operand is read at the entry's row … -/
theorem lhs_row (j : S5000x256.Idx) (q : dot_S5000x512_S512x256_S5000x256_1_0_0_1_n_n.contr.Idx) :
    (dot_S5000x512_S512x256_S5000x256_1_0_0_1_n_n.lhsIdx j q 0).val = (j 0).val := by
  unfold DotDims.lhsIdx
  rw [dif_neg (show ¬(0 : Fin S5000x512.rank) ∈ dot_S5000x512_S512x256_S5000x256_1_0_0_1_n_n.lhsBatch by decide), dif_pos (show (0 : Fin S5000x512.rank) ∈ dot_S5000x512_S512x256_S5000x256_1_0_0_1_n_n.lhsNonContracting by decide)]
  rfl
/-- … and at the contraction position; -/
theorem lhs_pos (j : S5000x256.Idx) (q : dot_S5000x512_S512x256_S5000x256_1_0_0_1_n_n.contr.Idx) :
    (dot_S5000x512_S512x256_S5000x256_1_0_0_1_n_n.lhsIdx j q 1).val = (q ⟨0, by decide⟩).val :=
  dot_S5000x512_S512x256_S5000x256_1_0_0_1_n_n.lhsIdx_val_of_single rfl j q
/-- the right operand at the contraction position … -/
theorem rhs_pos (j : S5000x256.Idx) (q : dot_S5000x512_S512x256_S5000x256_1_0_0_1_n_n.contr.Idx) :
    (dot_S5000x512_S512x256_S5000x256_1_0_0_1_n_n.rhsIdx j q 0).val = (q ⟨0, by decide⟩).val :=
  dot_S5000x512_S512x256_S5000x256_1_0_0_1_n_n.rhsIdx_val_of_single rfl j q
/-- … and at the entry's column. -/
theorem rhs_col (j : S5000x256.Idx) (q : dot_S5000x512_S512x256_S5000x256_1_0_0_1_n_n.contr.Idx) :
    (dot_S5000x512_S512x256_S5000x256_1_0_0_1_n_n.rhsIdx j q 1).val = (j 1).val := by
  unfold DotDims.rhsIdx
  rw [dif_neg (show ¬(1 : Fin S512x256.rank) ∈ dot_S5000x512_S512x256_S5000x256_1_0_0_1_n_n.rhsBatch by decide), dif_pos (show (1 : Fin S512x256.rank) ∈ dot_S5000x512_S512x256_S5000x256_1_0_0_1_n_n.rhsNonContracting by decide)]
  rfl

/-- Inside a block: entry `(r, q)` reads the feature block at `(r, k)` … -/
abbrev featIn (j : S5000x256.Idx) (k : Fin 512) : S5000x512.Idx := fun a => match a with
  | ⟨0, _⟩ => ⟨(j 0).val, (j 0).isLt⟩
  | ⟨1, _⟩ => ⟨k.val, k.isLt⟩
/-- … and the weight block at `(k, q)`. -/
abbrev wgtIn (j : S5000x256.Idx) (k : Fin 512) : S512x256.Idx := fun a => match a with
  | ⟨0, _⟩ => ⟨k.val, k.isLt⟩
  | ⟨1, _⟩ => ⟨(j 1).val, (j 1).isLt⟩

/-- What the body stores, at an entry: the sum over the 512 contraction positions of the loaded blocks' products
    (the two shape casts are of a shape to itself; the accumulator is the zero array). -/
theorem block_product (x0 : Vec Ideal S5000x512 .bf16) (x1 : Vec Ideal S512x256 .bf16) (j : S5000x256.Idx) :
    k0_pay1 (F := Ideal) x0 x1 j = ∑ k : Fin 512, x0 (featIn j k) * x1 (wgtIn j k) := by
  unfold k0_pay1
  rw [shapeCast_self, shapeCast_self]
  simp only [matmul]
  rw [Ideal.matmul_constant_zero_apply, ← Equiv.sum_comp (ValueIdx.contrEquiv1 dot_S5000x512_S512x256_S5000x256_1_0_0_1_n_n 512 rfl rfl).symm]
  refine Finset.sum_congr rfl fun k _ => ?_
  have hk := ValueIdx.contrEquiv1_symm_val dot_S5000x512_S512x256_S5000x256_1_0_0_1_n_n 512 rfl rfl k
  have el : dot_S5000x512_S512x256_S5000x256_1_0_0_1_n_n.lhsIdx j ((ValueIdx.contrEquiv1 dot_S5000x512_S512x256_S5000x256_1_0_0_1_n_n 512 rfl rfl).symm k) = featIn j k := funext fun a => Fin.ext (by
    match a with
    | ⟨0, _⟩ => exact lhs_row _ _
    | ⟨1, _⟩ => exact (lhs_pos _ _).trans hk)
  have er : dot_S5000x512_S512x256_S5000x256_1_0_0_1_n_n.rhsIdx j ((ValueIdx.contrEquiv1 dot_S5000x512_S512x256_S5000x256_1_0_0_1_n_n 512 rfl rfl).symm k) = wgtIn j k := funext fun a => Fin.ext (by
    match a with
    | ⟨0, _⟩ => exact (rhs_pos _ _).trans hk
    | ⟨1, _⟩ => exact rhs_col _ _)
  rw [el, er]

/-! ## Block `t` of the result -/

/-- The block indices over the ten grid points: the feature block moves with the result block down the rows and
    sits at column block 0; the weight block is always block (0, 0); the result's row block is at most 9 and its
    column block is 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some grid point's. -/
theorem block_onto : ∀ q : Fin 10, ∃ t : Fin cfg0.N, win0_2.index t = ![q.val, 0] :=
  (by decide +kernel : ∀ q : Fin 10, ∃ t : Fin grid0.N, win0_2.index t = ![q.val, 0])

/-- What grid point `t` writes back is block `t` of `dense1` of the two operand arrays as the call finds them. -/
theorem flushed_eq (c : Dev nD) (t : Fin cfg0.N) :
    (dat0 V c).flushed 2 t = ((cfg0.win 2).blk t).view.read (Elt Ideal) (dense1 (V c main_v4) (V c main_v5)) := by
  show (cfg0.win 2).cut (grid0.coords t) ((dat0 V c).after 2 t) = _
  rw [after0_2]
  unfold out0_2
  rw [View.canon_unit_zero off_zero]
  simp only [View.ld_unit_zero (S := S5000x512) off_zero, View.ld_unit_zero (S := S512x256) off_zero]
  obtain ⟨e0, e1, e2, e3, e4, e5⟩ := block_indices t
  funext j
  show k0_pay1 (F := Ideal) (iblk0 V c 0 t) (iblk0 V c 1 t) j = dense1 (V c main_v4) (V c main_v5) (((cfg0.win 2).blk t).view.emb j)
  refine (block_product (iblk0 V c 0 t) (iblk0 V c 1 t) j).trans ?_
  unfold dense1
  refine Finset.sum_congr rfl fun k _ => ?_
  have h0 : ((cfg0.win 0).blk t).view.emb (featIn j k) = featAt1 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (wgtIn j k) = wgtAt1 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  show featArr V c (((cfg0.win 0).blk t).view.emb (featIn j k)) * wgtArr V c (((cfg0.win 1).blk t).view.emb (wgtIn j k)) = _
  rw [h0, h1]

/-! ## The blocks tile the result -/

/-- An entry of the result is in grid point `t`'s block iff each coordinate is in the block's range on its axis. -/
theorem mem_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v6).slice (win0_2.rect t)).set ↔ _
  rw [View.set_slice_whole, Rect.mem_set_unit]
  exact Iff.rfl

/-- Row `r` of the result is written by the grid point whose row block is `r / 5000`. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The result array the call leaves: layer one's dense transform of the two operand arrays as the call finds them. -/
theorem array_eq (c : Dev nD) : (dat0 V c).arrAt 2 cfg0.N = dense1 (V c main_v4) (V c main_v5) :=
  (dat0 V c).arrAt_eq_of_cover 2 _ (fun t _ => flushed_eq V c t) covered

end Cert.KernelIdeal.Dense1

end
-- ==== Proof.Dense2.lean ====
/-
  Layer two's dense transform as the kernel computes it.

  The kernel walks the 50000 rows of the features in ten blocks of 5000; at block `t` it loads the rows
  `5000·t … 5000·t + 4999` of the features (all 256 columns) and the whole [256, 64] weight array, forms their
  product into a zero accumulator, and stores it as rows `5000·t … 5000·t + 4999` of the result. Over the extended
  reals a product into a zero accumulator is, entry by entry, the plain sum `∑ k, x[r, k] · w[k, q]`; row `r` of
  block `t` is row `5000·t + r` of the array and the weight block is the array itself, so block `t` of the result
  is block `t` of `Cert.Gcn.dense2` of the two arrays as the call finds them. The ten blocks tile the result
  (row `r` lies in block `r / 5000`), hence the array the call leaves is `dense2` of its two operands.
-/
import proofs.«153978_j61864708932307_1_alg».proof.Proof.Gen.KernelIdeal.Frame
import proofs.«153978_j61864708932307_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense2

open Idealize.ShloMosaic Idealize.ShloMosaic.TcCoe Idealize.SL.Sem
open Cert.KernelIdeal Cert.KernelIdeal.Gen Cert.Gcn
open Idealize.ShloMosaic.Pipeline (Dat Cfg Window)

-- the buffer contents the call is entered with
variable (V : (c : Dev nD) → (b : Ref sig .tc) → Buf (Elt Ideal) ((c : Thread nD τ).loc b))

/-- The feature array as the call finds it, entry by entry an extended real. -/
abbrev featArr (c : Dev nD) : S50000x256.Idx → EReal := V c main_v50
/-- The weight array as the call finds it. -/
abbrev wgtArr (c : Dev nD) : S256x64.Idx → EReal := V c main_v51

theorem off_zero : (![0, 0] : Fin 2 → Nat) = fun _ => 0 := funext fun a => by fin_cases a <;> rfl

/-! ## One block's product at an entry -/

/-- The block product's left operand is read at the entry's row … -/
theorem lhs_row (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- … and at the contraction position; -/
theorem lhs_pos (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
/-- the right operand at the contraction position … -/
theorem rhs_pos (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
/-- … and at the entry's column. -/
theorem rhs_col (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Inside a block: entry `(r, q)` reads the feature block at `(r, k)` … -/
abbrev featIn (j : S5000x64.Idx) (k : Fin 256) : S5000x256.Idx := fun a => match a with
  | ⟨0, _⟩ => ⟨(j 0).val, (j 0).isLt⟩
  | ⟨1, _⟩ => ⟨k.val, k.isLt⟩
/-- … and the weight block at `(k, q)`. -/
abbrev wgtIn (j : S5000x64.Idx) (k : Fin 256) : S256x64.Idx := fun a => match a with
  | ⟨0, _⟩ => ⟨k.val, k.isLt⟩
  | ⟨1, _⟩ => ⟨(j 1).val, (j 1).isLt⟩

/-- What the body stores, at an entry: the sum over the 256 contraction positions of the loaded blocks' products
    (the two shape casts are of a shape to itself; the accumulator is the zero array). -/
theorem block_product (x0 : Vec Ideal S5000x256 .bf16) (x1 : Vec Ideal S256x64 .bf16) (j : S5000x64.Idx) :
    k1_pay1 (F := Ideal) x0 x1 j = ∑ k : Fin 256, x0 (featIn j k) * x1 (wgtIn j k) := by
  unfold k1_pay1
  rw [shapeCast_self, shapeCast_self]
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = featIn j k := funext fun a => Fin.ext (by
    match a with
    | ⟨0, _⟩ => exact lhs_row _ _
    | ⟨1, _⟩ => exact (lhs_pos _ _).trans hk)
  have er : dot_S5000x256_S256x64_S5000x64_1_0_0_1_n_n.rhsIdx j ((ValueIdx.contrEquiv1 dot_S5000x256_S256x64_S5000x64_1_0_0_1_n_n 256 rfl rfl).symm k) = wgtIn j k := funext fun a => Fin.ext (by
    match a with
    | ⟨0, _⟩ => exact (rhs_pos _ _).trans hk
    | ⟨1, _⟩ => exact rhs_col _ _)
  rw [el, er]

/-! ## Block `t` of the result -/

/-- The block indices over the ten grid points: the feature block moves with the result block down the rows and
    sits at column block 0; the weight block is always block (0, 0); the result's row block is at most 9 and its
    column block is 0. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 9
    ∧ win1_2.index t (1 : Fin 2) = 0 :=
  (by decide +kernel : ∀ t : Fin grid1.N, _)

/-- Every one of the ten row blocks is some grid point's. -/
theorem block_onto : ∀ q : Fin 10, ∃ t : Fin cfg1.N, win1_2.index t = ![q.val, 0] :=
  (by decide +kernel : ∀ q : Fin 10, ∃ t : Fin grid1.N, win1_2.index t = ![q.val, 0])

/-- What grid point `t` writes back is block `t` of `dense2` of the two operand arrays as the call finds them. -/
theorem flushed_eq (c : Dev nD) (t : Fin cfg1.N) :
    (dat1 V c).flushed 2 t = ((cfg1.win 2).blk t).view.read (Elt Ideal) (dense2 (V c main_v50) (V c main_v51)) := by
  show (cfg1.win 2).cut (grid1.coords t) ((dat1 V c).after 2 t) = _
  rw [after1_2]
  unfold out1_2
  rw [View.canon_unit_zero off_zero]
  simp only [View.ld_unit_zero (S := S5000x256) off_zero, View.ld_unit_zero (S := S256x64) off_zero]
  obtain ⟨e0, e1, e2, e3, e4, e5⟩ := block_indices t
  funext j
  show k1_pay1 (F := Ideal) (iblk1 V c 0 t) (iblk1 V c 1 t) j = dense2 (V c main_v50) (V c main_v51) (((cfg1.win 2).blk t).view.emb j)
  refine (block_product (iblk1 V c 0 t) (iblk1 V c 1 t) j).trans ?_
  unfold dense2
  refine Finset.sum_congr rfl fun k _ => ?_
  have h0 : ((cfg1.win 0).blk t).view.emb (featIn j k) = featAt2 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have h1 : ((cfg1.win 1).blk t).view.emb (wgtIn j k) = wgtAt2 (((cfg1.win 2).blk t).view.emb j) k := by
    funext a; apply Fin.ext
    match a with
    | ⟨0, _⟩ => show win1_1.index t (0 : Fin 2) * 256 + 1 * k.val = k.val; omega
    | ⟨1, _⟩ => show win1_1.index t (1 : Fin 2) * 64 + 1 * (j 1).val = win1_2.index t (1 : Fin 2) * 64 + 1 * (j 1).val; omega
  show featArr V c (((cfg1.win 0).blk t).view.emb (featIn j k)) * wgtArr V c (((cfg1.win 1).blk t).view.emb (wgtIn j k)) = _
  rw [h0, h1]

/-! ## The blocks tile the result -/

/-- An entry of the result is in grid point `t`'s block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Row `r` of the result is written by the grid point whose row block is `r / 5000`. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array the call leaves: layer two's dense transform of the two operand arrays as the call finds them. -/
theorem array_eq (c : Dev nD) : (dat1 V c).arrAt 2 cfg1.N = dense2 (V c main_v50) (V c main_v51) :=
  (dat1 V c).arrAt_eq_of_cover 2 _ (fun t _ => flushed_eq V c t) covered

end Cert.KernelIdeal.Dense2

end
-- ==== Proof.RefPieces.lean ====
import proofs.«153978_j61864708932307_1_alg».proof.Proof.Gen.ReferenceIdeal

noncomputable section

namespace Cert.ReferenceIdeal.Pieces

open Cert.ReferenceIdeal Cert.ReferenceIdeal.Gen Idealize.ShloMosaic Idealize.ShloMosaic.TcCoe Idealize.SL.Sem Idealize.ShloMosaic.StableHlo

variable {F : FTy → Type} [FloatOps F]

/-- The edge list's first row: the edges' source nodes. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edge list's second row: the edges' target nodes. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

set_option maxRecDepth 8192 in
/-- Layer one after its dense transform `h1`: self-loops joined to the edges, the degree count, the symmetric
    normalisation, the gathered and scaled messages summed at their targets, the bias added, negative parts cut. -/
def layer1 (h1 : (⟨S50000x256, .f32⟩ : BufTy).Contents (Elt F)) (s d : (⟨S800000, .i32⟩ : BufTy).Contents (Elt F)) (b1 : (⟨S256, .f32⟩ : BufTy).Contents (Elt F)) : (⟨S50000x256, .f32⟩ : BufTy).Contents (Elt F) :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (mulf (Host.gather gather_S50000x256_S850000x1_S850000x256_1_0_n_n_0_1_1256 h1 (broadcastInDim S850000x1 ![0] bcast_S850000_S850000x1_0 (select (cmpi .slt (concatenate S850000 0 [⟨S800000, s⟩, ⟨S50000, (iotaInDim S50000 32 0)⟩] concatenates_S800000_S50000_S850000_d0) (broadcastInDim S850000 ![] bcast_S_S850000 (constantI S_ 32 0#32))) (addi (concatenate S850000 0 [⟨S800000, s⟩, ⟨S50000, (iotaInDim S50000 32 0)⟩] concatenates_S800000_S50000_S850000_d0) (broadcastInDim S850000 ![] bcast_S_S850000 (constantI S_ 32 50000#32))) (concatenate S850000 0 [⟨S800000, s⟩, ⟨S50000, (iotaInDim S50000 32 0)⟩] concatenates_S800000_S50000_S850000_d0)))) (broadcastInDim S850000x256 ![0, 1] bcast_S850000x1_S850000x256_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, s⟩, ⟨S50000, (iotaInDim S50000 32 0)⟩] concatenates_S800000_S50000_S850000_d0) (broadcastInDim S850000 ![] bcast_S_S850000 (constantI S_ 32 0#32))) (addi (concatenate S850000 0 [⟨S800000, s⟩, ⟨S50000, (iotaInDim S50000 32 0)⟩] concatenates_S800000_S50000_S850000_d0) (broadcastInDim S850000 ![] bcast_S_S850000 (constantI S_ 32 50000#32))) (concatenate S850000 0 [⟨S800000, s⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, d⟩, ⟨S50000, (iotaInDim S50000 32 0)⟩] concatenates_S800000_S50000_S850000_d0) (broadcastInDim S850000 ![] bcast_S_S850000 (constantI S_ 32 0#32))) (addi (concatenate S850000 0 [⟨S800000, d⟩, ⟨S50000, (iotaInDim S50000 32 0)⟩] concatenates_S800000_S50000_S850000_d0) (broadcastInDim S850000 ![] bcast_S_S850000 (constantI S_ 32 50000#32))) (concatenate S850000 0 [⟨S800000, d⟩, ⟨S50000, (iotaInDim S50000 32 0)⟩] concatenates_S800000_S50000_S850000_d0))))))))) (broadcastInDim S50000x256 ![0, 1] bcast_S1x256_S50000x256_0_1 (broadcastInDim S1x256 ![1] bcast_S256_S1x256_1 b1))) (broadcastInDim S50000x256 ![] bcast_S_S50000x256 (constant S_ .f32 0x00000000#32))

set_option maxRecDepth 8192 in
/-- Layer two after its dense transform `h2`: the same aggregation, the bias added. -/
def aggregate2 (h2 : (⟨S50000x64, .f32⟩ : BufTy).Contents (Elt F)) (s d : (⟨S800000, .i32⟩ : BufTy).Contents (Elt F)) (b2 : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (mulf (Host.gather gather_S50000x64_S850000x1_S850000x64_1_0_n_n_0_1_164 h2 (broadcastInDim S850000x1 ![0] bcast_S850000_S850000x1_0 (select (cmpi .slt (concatenate S850000 0 [⟨S800000, s⟩, ⟨S50000, (iotaInDim S50000 32 0)⟩] concatenates_S800000_S50000_S850000_d0) (broadcastInDim S850000 ![] bcast_S_S850000 (constantI S_ 32 0#32))) (addi (concatenate S850000 0 [⟨S800000, s⟩, ⟨S50000, (iotaInDim S50000 32 0)⟩] concatenates_S800000_S50000_S850000_d0) (broadcastInDim S850000 ![] bcast_S_S850000 (constantI S_ 32 50000#32))) (concatenate S850000 0 [⟨S800000, s⟩, ⟨S50000, (iotaInDim S50000 32 0)⟩] concatenates_S800000_S50000_S850000_d0)))) (broadcastInDim S850000x64 ![0, 1] bcast_S850000x1_S850000x64_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, s⟩, ⟨S50000, (iotaInDim S50000 32 0)⟩] concatenates_S800000_S50000_S850000_d0) (broadcastInDim S850000 ![] bcast_S_S850000 (constantI S_ 32 0#32))) (addi (concatenate S850000 0 [⟨S800000, s⟩, ⟨S50000, (iotaInDim S50000 32 0)⟩] concatenates_S800000_S50000_S850000_d0) (broadcastInDim S850000 ![] bcast_S_S850000 (constantI S_ 32 50000#32))) (concatenate S850000 0 [⟨S800000, s⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, d⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, d⟩, ⟨S50000, (iotaInDim S50000 32 0)⟩] concatenates_S800000_S50000_S850000_d0) (broadcastInDim S850000 ![] bcast_S_S850000 (constantI S_ 32 0#32))) (addi (concatenate S850000 0 [⟨S800000, d⟩, ⟨S50000, (iotaInDim S50000 32 0)⟩] concatenates_S800000_S50000_S850000_d0) (broadcastInDim S850000 ![] bcast_S_S850000 (constantI S_ 32 50000#32))) (concatenate S850000 0 [⟨S800000, d⟩, ⟨S50000, (iotaInDim S50000 32 0)⟩] concatenates_S800000_S50000_S850000_d0))))))))) (broadcastInDim S50000x64 ![0, 1] bcast_S1x64_S50000x64_0_1 (broadcastInDim S1x64 ![1] bcast_S64_S1x64_1 b2))

/-- The row-wise log-softmax: each entry less its row's maximum, less the logarithm of the row's sum of the exponentials of those differences. -/
def logSoftmax (a : (⟨S50000x64, .f32⟩ : BufTy).Contents (Elt F)) : (⟨S50000x64, .f32⟩ : BufTy).Contents (Elt F) :=
  subf (subf a (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf a (constant S_ .f32 0xFF800000#32) reducesTo_S50000x64_S50000_d1 h_S_))))) (broadcastInDim S50000x64 ![0, 1] bcast_S50000x1_S50000x64_0_1 (Host.log (broadcastInDim S50000x1 ![0] bcast_S50000_S50000x1_0 (Host.reduceAdd (Host.exp (subf a (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf a (constant S_ .f32 0xFF800000#32) reducesTo_S50000x64_S50000_d1 h_S_)))))) (constant S_ .f32 0x00000000#32) reducesTo_S50000x64_S50000_d1 h_S_))))

end Cert.ReferenceIdeal.Pieces

end
-- ==== Proof.LibTypedRef.lean ====
/-
  A general fact about typed references to host buffers (Lib/StableHlo.lean `TRef`).

  A module-local function's operations address their operands through typed references: a buffer together with
  an equation saying that the buffer's type is the value's type. Writing a value goes through `toBuf` (a transport
  along that equation), reading through `ofBuf` (the transport back). Read after write through ONE typed reference is
  therefore the identity, whatever the equation's proof is: it is enough to take the equation apart, after which
  both transports are along `rfl`. Rewriting with this fact removes the paired transports of an inlined call's
  composed value without ever computing a buffer's type, which a comparison by unfolding would have to do at
  every pair.
-/
import Idealize.ShloMosaic.Lib.StableHlo

namespace Cert.Lib

open Idealize.ShloMosaic Idealize.ShloMosaic.StableHlo

/-- A value written through a typed reference and read back through the same reference is the value. -/
theorem ofBuf_toBuf {sig : RefSig} {Val : EltTy → Type} {T : BufTy} (x : TRef sig T) (v : T.Contents Val) :
    x.ofBuf (x.toBuf v) = v := by
  obtain ⟨r, rfl, _, _⟩ := x
  rfl

/-- A buffer's contents read through a typed reference and written back through the same reference are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.HostValue.lean ====
/-
  The kernel's host side, at any float family.

  Around its two calls the kernel's program runs the same host operations as the reference: before the first call the
  edge list's two rows and the narrowing of the features and of layer one's weights; between the calls layer one's
  aggregation of the first call's result and the narrowing of its rectified sum and of layer two's weights; after the
  second call layer two's aggregation and, as a fourth stretch, the row-wise log-softmax. Each of the stretches is evaluated from ANY
  buffer contents, and what it leaves is stated with the functions the reference's own term was cut into
  (`Cert.ReferenceIdeal.Pieces`): operation for operation the two programs' host texts are the same, so the equations close by
  comparing the two terms. Then the contents at the end of @main (`Gen.W12`) are read back through the two calls — a
  call rewrites its three arrays and nothing else — down to the launch memory.
-/
import proofs.«153978_j61864708932307_1_alg».proof.Proof.Gen.KernelIdeal.Frame
import proofs.«153978_j61864708932307_1_alg».proof.Proof.RefPieces
import proofs.«153978_j61864708932307_1_alg».proof.Proof.LibTypedRef
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

section Stretches

variable (V : Valuation τ sig (Elt F))

set_option maxHeartbeats 4000000 in
/-- Before the first call: the features and layer one's weights narrowed, the edge list's two rows, the rest as found. -/
theorem before_first :
    after hostOps0 V (Proc.devRef .tc main_v4) = truncf .bf16 (V (Proc.devRef .tc main_arg0) : (⟨S50000x512, .f32⟩ : BufTy).Contents (Elt F)) bitsLt_bf16_f32
    ∧ after hostOps0 V (Proc.devRef .tc main_v5) = truncf .bf16 (V (Proc.devRef .tc main_arg2) : (⟨S512x256, .f32⟩ : BufTy).Contents (Elt F)) bitsLt_bf16_f32
    ∧ after hostOps0 V (Proc.devRef .tc main_v1) = Cert.ReferenceIdeal.Pieces.srcOf (V (Proc.devRef .tc main_arg1))
    ∧ after hostOps0 V (Proc.devRef .tc main_v3) = Cert.ReferenceIdeal.Pieces.dstOf (V (Proc.devRef .tc main_arg1))
    ∧ after hostOps0 V (Proc.devRef .tc main_arg3) = V (Proc.devRef .tc main_arg3)
    ∧ after hostOps0 V (Proc.devRef .tc main_arg4) = V (Proc.devRef .tc main_arg4)
    ∧ after hostOps0 V (Proc.devRef .tc main_arg5) = V (Proc.devRef .tc main_arg5) := by
  refine ⟨?_, ?_, ?_, ?_, ?_, ?_, ?_⟩ <;> after_results_simp <;> rfl

set_option maxHeartbeats 16000000 in
/-- Between the calls: layer one's aggregation of the first call's result, narrowed; layer two's weights narrowed;
    the two rows and the last bias as found. -/
theorem between_calls :
    after hostOps1_4 (after hostOps1_3 (after hostOps1_2 (after hostOps1_1 (after hostOps1 V)))) (Proc.devRef .tc main_v50)
        = truncf .bf16 (Cert.ReferenceIdeal.Pieces.layer1 (V (Proc.devRef .tc main_v6)) (V (Proc.devRef .tc main_v1)) (V (Proc.devRef .tc main_v3)) (V (Proc.devRef .tc main_arg3))) bitsLt_bf16_f32
    ∧ after hostOps1_4 (after hostOps1_3 (after hostOps1_2 (after hostOps1_1 (after hostOps1 V)))) (Proc.devRef .tc main_v51) = truncf .bf16 (V (Proc.devRef .tc main_arg4) : (⟨S256x64, .f32⟩ : BufTy).Contents (Elt F)) bitsLt_bf16_f32
    ∧ after hostOps1_4 (after hostOps1_3 (after hostOps1_2 (after hostOps1_1 (after hostOps1 V)))) (Proc.devRef .tc main_v1) = V (Proc.devRef .tc main_v1)
    ∧ after hostOps1_4 (after hostOps1_3 (after hostOps1_2 (after hostOps1_1 (after hostOps1 V)))) (Proc.devRef .tc main_v3) = V (Proc.devRef .tc main_v3)
    ∧ after hostOps1_4 (after hostOps1_3 (after hostOps1_2 (after hostOps1_1 (after hostOps1 V)))) (Proc.devRef .tc main_arg5) = V (Proc.devRef .tc main_arg5) := by
  refine ⟨?_, ?_, ?_, ?_, ?_⟩
  · after_results_simp
    unfold Cert.ReferenceIdeal.Pieces.layer1
    rfl
  all_goals (after_results_simp <;> rfl)

set_option maxHeartbeats 16000000 in
/-- After the second call: layer two's aggregation of its result, with its bias. -/
theorem after_second :
    after hostOps2_2 (after hostOps2_1 (after hostOps2 V)) (Proc.devRef .tc main_v94)
        = Cert.ReferenceIdeal.Pieces.aggregate2 (V (Proc.devRef .tc main_v52)) (V (Proc.devRef .tc main_v1)) (V (Proc.devRef .tc main_v3)) (V (Proc.devRef .tc main_arg5)) := by
  after_results_simp
  unfold Cert.ReferenceIdeal.Pieces.aggregate2
  rfl

set_option maxHeartbeats 16000000 in
/-- The last stretch: the row-wise log-softmax of what it finds in layer two's sum. The called function's
    intermediate values are written and read back through typed references; read after write through one reference
    is the identity (`Cert.Lib.ofBuf_toBuf`). -/
theorem log_softmax_call :
    after hostOps2_3 V (Proc.devRef .tc main_v95) = Cert.ReferenceIdeal.Pieces.logSoftmax (V (Proc.devRef .tc main_v94)) := by
  after_results_simp
  simp only [Cert.Lib.ofBuf_toBuf]
  unfold Cert.ReferenceIdeal.Pieces.logSoftmax
  rfl

end Stretches

/-! ## The contents at the end of @main, read back through the two calls -/

variable (m : (ℓ : Loc nD τ sig) → Buf (Elt F) ℓ) (ρ : Dev nD → PrngReg) (c : Dev nD)

/-- What the first call is entered with: the features and layer one's weights, narrowed. -/
theorem first_operands :
    V1 m ρ c main_v4 = truncf .bf16 (m ((c : Thread nD τ).loc main_arg0) : (⟨S50000x512, .f32⟩ : BufTy).Contents (Elt F)) bitsLt_bf16_f32
    ∧ V1 m ρ c main_v5 = truncf .bf16 (m ((c : Thread nD τ).loc main_arg2) : (⟨S512x256, .f32⟩ : BufTy).Contents (Elt F)) bitsLt_bf16_f32 := by
  obtain ⟨h4, h5, -⟩ := before_first (F := F) (W0 m ρ c)
  exact ⟨h4, h5⟩

/-- The first call leaves everything but its three arrays as it found it; here, what the later stretches read. -/
theorem after_first_kept :
    W2 m ρ c (Proc.devRef .tc main_v1) = Cert.ReferenceIdeal.Pieces.srcOf (m ((c : Thread nD τ).loc main_arg1))
    ∧ W2 m ρ c (Proc.devRef .tc main_v3) = Cert.ReferenceIdeal.Pieces.dstOf (m ((c : Thread nD τ).loc main_arg1))
    ∧ W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5) := by
  obtain ⟨-, -, h1, h3, ha3, ha4, ha5⟩ := before_first (F := F) (W0 m ρ c)
  exact ⟨(W2_of_ne m ρ c main_v1 (by decide)).trans h1, (W2_of_ne m ρ c main_v3 (by decide)).trans h3,
    (W2_of_ne m ρ c main_arg3 (by decide)).trans ha3, (W2_of_ne m ρ c main_arg4 (by decide)).trans ha4,
    (W2_of_ne m ρ c main_arg5 (by decide)).trans ha5⟩

/-- What the second call is entered with: layer one's aggregation of the first call's result array, narrowed, and
    layer two's weights, narrowed. -/
theorem second_operands :
    V7 m ρ c main_v50
        = truncf .bf16 (Cert.ReferenceIdeal.Pieces.layer1 ((dat0 (V1 m ρ) c).arrAt 2 cfg0.N) (Cert.ReferenceIdeal.Pieces.srcOf (m ((c : Thread nD τ).loc main_arg1)))
            (Cert.ReferenceIdeal.Pieces.dstOf (m ((c : Thread nD τ).loc main_arg1))) (m ((c : Thread nD τ).loc main_arg3))) bitsLt_bf16_f32
    ∧ V7 m ρ c main_v51 = truncf .bf16 (m ((c : Thread nD τ).loc main_arg4) : (⟨S256x64, .f32⟩ : BufTy).Contents (Elt F)) bitsLt_bf16_f32 := by
  obtain ⟨h50, h51, -⟩ := between_calls (F := F) (W2 m ρ c)
  obtain ⟨k1, k3, ka3, ka4, -⟩ := after_first_kept (F := F) m ρ c
  have k6 : W2 m ρ c (Proc.devRef .tc main_v6) = (dat0 (V1 m ρ) c).arrAt 2 cfg0.N := W2_arr m ρ c 2
  refine ⟨h50.trans ?_, h51.trans ?_⟩
  · rw [k6, k1, k3, ka3]
  · rw [ka4]

/-- The result buffer at the end of @main: the log-softmax of layer two's aggregation of the second call's result array. -/
theorem result_fold :
    W12 m ρ c (Proc.devRef .tc main_v95)
      = Cert.ReferenceIdeal.Pieces.logSoftmax (Cert.ReferenceIdeal.Pieces.aggregate2 ((dat1 (V7 m ρ) c).arrAt 2 cfg1.N) (Cert.ReferenceIdeal.Pieces.srcOf (m ((c : Thread nD τ).loc main_arg1)))
          (Cert.ReferenceIdeal.Pieces.dstOf (m ((c : Thread nD τ).loc main_arg1))) (m ((c : Thread nD τ).loc main_arg5))) := by
  obtain ⟨-, -, b1, b3, b5⟩ := between_calls (F := F) (W2 m ρ c)
  obtain ⟨k1, k3, -, -, ka5⟩ := after_first_kept (F := F) m ρ c
  have e52 : W8 m ρ c (Proc.devRef .tc main_v52) = (dat1 (V7 m ρ) c).arrAt 2 cfg1.N := W8_arr m ρ c 2
  have e1 : W8 m ρ c (Proc.devRef .tc main_v1) = Cert.ReferenceIdeal.Pieces.srcOf (m ((c : Thread nD τ).loc main_arg1)) :=
    (W8_of_ne m ρ c main_v1 (by decide)).trans (b1.trans k1)
  have e3 : W8 m ρ c (Proc.devRef .tc main_v3) = Cert.ReferenceIdeal.Pieces.dstOf (m ((c : Thread nD τ).loc main_arg1)) :=
    (W8_of_ne m ρ c main_v3 (by decide)).trans (b3.trans k3)
  have e5 : W8 m ρ c (Proc.devRef .tc main_arg5) = m ((c : Thread nD τ).loc main_arg5) :=
    (W8_of_ne m ρ c main_arg5 (by decide)).trans (b5.trans ka5)
  refine (log_softmax_call (F := F) (W11 m ρ c)).trans ?_
  refine congrArg Cert.ReferenceIdeal.Pieces.logSoftmax ((after_second (F := F) (W8 m ρ c)).trans ?_)
  rw [e52, e1, e3, e5]

end Cert.KernelIdeal.HostValue

end
-- ==== Proof.RefValue.lean ====
/-
  The reference's run, read back.

  The reference is one straight line of 134 host operations. It is cut here into four stretches: the edge list's two
  rows and layer one's dense transform (5 operations); layer one's aggregation — self-loops, degrees, the symmetric
  normalisation, gather, scale, scatter-add, bias, rectification — and layer two's dense transform (59 operations); layer
  two's aggregation with its bias (55 operations); the row-wise log-softmax (15 operations). Each stretch is evaluated
  from ANY buffer contents: what it leaves in the buffers the next stretch reads is a named function (`Pieces.srcOf`,
  `dstOf`, `layer1`, `aggregate2`, `logSoftmax`, the two contractions) of what it found in the buffers it reads, and
  it leaves the other buffers alone. Composing the four gives the result buffer after the whole line as one term of the
  six argument arrays.
-/
import proofs.«153978_j61864708932307_1_alg».proof.Proof.RefRun
import proofs.«153978_j61864708932307_1_alg».proof.Proof.RefPieces
import proofs.«153978_j61864708932307_1_alg».proof.Proof.LibTypedRef
import Idealize.ShloMosaic.Lib.Pipeline.Frame

set_option maxRecDepth 16384

noncomputable section

namespace Cert.ReferenceIdeal.RefValue

open Cert.ReferenceIdeal Cert.ReferenceIdeal.Gen Cert.ReferenceIdeal.Value Cert.ReferenceIdeal.Pieces
open Idealize.ShloMosaic Idealize.ShloMosaic.TcCoe Idealize.SL.Sem Idealize.ShloMosaic.StableHlo

variable {F : FTy → Type} [FloatOps F]

/-- The first stretch: the edge list's rows and layer one's dense transform. -/
abbrev stretchA : List (HloOp τ sig (Elt F)) := (ops (F := F)).take 5
/-- The second stretch: layer one's aggregation and layer two's dense transform. -/
abbrev stretchB : List (HloOp τ sig (Elt F)) := ((ops (F := F)).drop 5).take 59
/-- The third stretch: layer two's aggregation and its bias. -/
abbrev stretchC : List (HloOp τ sig (Elt F)) := (((ops (F := F)).drop 5).drop 59).take 55
/-- The fourth stretch: the row-wise log-softmax. -/
abbrev stretchD : List (HloOp τ sig (Elt F)) := (((ops (F := F)).drop 5).drop 59).drop 55

theorem ops_split : (ops : List (HloOp τ sig (Elt F))) = stretchA ++ (stretchB ++ (stretchC ++ stretchD)) := by
  show ops = ops.take 5 ++ (((ops (F := F)).drop 5).take 59
    ++ ((((ops (F := F)).drop 5).drop 59).take 55 ++ (((ops (F := F)).drop 5).drop 59).drop 55))
  rw [List.take_append_drop, List.take_append_drop, List.take_append_drop]

section Stretches

variable (V : Valuation τ sig (Elt F))

set_option maxHeartbeats 4000000 in
/-- What the first stretch leaves: the two rows of the edge list, the first contraction, the other arguments as found. -/
theorem stretchA_vals :
    after stretchA V (Proc.devRef .tc main_v1) = srcOf (V (Proc.devRef .tc main_arg1))
    ∧ after stretchA V (Proc.devRef .tc main_v3) = dstOf (V (Proc.devRef .tc main_arg1))
    ∧ after stretchA V (Proc.devRef .tc main_v4)
        = Host.dotGeneral dot_S50000x512_S512x256_S50000x256_1_0_0_1_n_n none (V (Proc.devRef .tc main_arg0)) (V (Proc.devRef .tc main_arg2))
    ∧ after stretchA V (Proc.devRef .tc main_arg3) = V (Proc.devRef .tc main_arg3)
    ∧ after stretchA V (Proc.devRef .tc main_arg4) = V (Proc.devRef .tc main_arg4)
    ∧ after stretchA V (Proc.devRef .tc main_arg5) = V (Proc.devRef .tc main_arg5) := by
  simp only [stretchA, ops, List.take_succ_cons, List.take_zero]
  refine ⟨?_, ?_, ?_, ?_, ?_, ?_⟩ <;> after_results_simp <;> rfl

set_option maxHeartbeats 16000000 in
/-- What the second stretch leaves: layer two's contraction of layer one's aggregated features, the rows and the last
    bias as found. -/
theorem stretchB_vals :
    after stretchB V (Proc.devRef .tc main_v48)
        = Host.dotGeneral dot_S50000x256_S256x64_S50000x64_1_0_0_1_n_n none
            (layer1 (V (Proc.devRef .tc main_v4)) (V (Proc.devRef .tc main_v1)) (V (Proc.devRef .tc main_v3)) (V (Proc.devRef .tc main_arg3)))
            (V (Proc.devRef .tc main_arg4))
    ∧ after stretchB V (Proc.devRef .tc main_v1) = V (Proc.devRef .tc main_v1)
    ∧ after stretchB V (Proc.devRef .tc main_v3) = V (Proc.devRef .tc main_v3)
    ∧ after stretchB V (Proc.devRef .tc main_arg5) = V (Proc.devRef .tc main_arg5) := by
  simp only [stretchB, ops, List.drop_succ_cons, List.drop_zero, List.take_succ_cons, List.take_zero]
  refine ⟨?_, ?_, ?_, ?_⟩
  · after_results_simp
    unfold layer1
    rfl
  all_goals (after_results_simp <;> rfl)

set_option maxHeartbeats 16000000 in
/-- What the third stretch leaves: layer two's aggregated, biased features. -/
theorem stretchC_vals :
    after stretchC V (Proc.devRef .tc main_v90)
        = aggregate2 (V (Proc.devRef .tc main_v48)) (V (Proc.devRef .tc main_v1)) (V (Proc.devRef .tc main_v3)) (V (Proc.devRef .tc main_arg5)) := by
  simp only [stretchC, ops, List.drop_succ_cons, List.drop_zero, List.take_succ_cons, List.take_zero]
  after_results_simp
  unfold aggregate2
  rfl

set_option maxHeartbeats 16000000 in
/-- What the fourth stretch leaves in the result buffer: the log-softmax of what it finds in layer two's sum. The
    called function's intermediate values are written and read back through typed references; read after write
    through one reference is the identity (`Cert.Lib.ofBuf_toBuf`). -/
theorem stretchD_vals :
    after stretchD V (Proc.devRef .tc main_v91) = logSoftmax (V (Proc.devRef .tc main_v90)) := by
  simp only [stretchD, ops, List.drop_succ_cons, List.drop_zero]
  after_results_simp
  simp only [Cert.Lib.ofBuf_toBuf]
  unfold logSoftmax
  rfl

end Stretches

/-- The reference's result as one term of the argument arrays. -/
def result (m : (ℓ : Loc nD τ sig) → Buf (Elt F) ℓ) (c : Dev nD) : Buf (Elt F) ((c.tc : Thread nD τ).loc main_v91) :=
  logSoftmax (aggregate2 (Host.dotGeneral dot_S50000x256_S256x64_S50000x64_1_0_0_1_n_n none
      (layer1 (Host.dotGeneral dot_S50000x512_S512x256_S50000x256_1_0_0_1_n_n none (m ((c.tc : Thread nD τ).loc main_arg0)) (m ((c.tc : Thread nD τ).loc main_arg2)))
        (srcOf (m ((c.tc : Thread nD τ).loc main_arg1))) (dstOf (m ((c.tc : Thread nD τ).loc main_arg1))) (m ((c.tc : Thread nD τ).loc main_arg3)))
      (m ((c.tc : Thread nD τ).loc main_arg4))) (srcOf (m ((c.tc : Thread nD τ).loc main_arg1))) (dstOf (m ((c.tc : Thread nD τ).loc main_arg1))) (m ((c.tc : Thread nD τ).loc main_arg5)))

/-- The whole line leaves the result buffer at `result`. -/
theorem after_ops_result (m : (ℓ : Loc nD τ sig) → Buf (Elt F) ℓ) (c : Dev nD) :
    after ops (launchContents m c) (Proc.devRef .tc main_v91) = result m c := by
  obtain ⟨a1, a3, a4, ab3, ab4, ab5⟩ := stretchA_vals (F := F) (launchContents m c)
  obtain ⟨b48, b1, b3, bb5⟩ := stretchB_vals (F := F) (after stretchA (launchContents m c))
  rw [ops_split, StableHlo.after_append, StableHlo.after_append, StableHlo.after_append, stretchD_vals, stretchC_vals, b48, b1, b3, bb5, a1, a3, a4, ab3, ab4, ab5]
  rfl

set_option maxRecDepth 8192 in
set_option maxHeartbeats 53600000 in
/-- On every device, from any memory with zero counters: every weakly fair execution of the reference's @main
    terminates with the result buffer at `result` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (after_ops_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.RefDense.lean ====
/-
  The reference's two dense transforms over the extended reals.

  The reference contracts the whole [50000, 512] feature array with the [512, 256] weights in one host operation, and
  later the [50000, 256] aggregated features with the [256, 64] weights. Over the extended reals such a contraction is,
  entry by entry, the sum over the contraction position of the operands' products, whatever the host's schedule: the
  very sums `Cert.Gcn.dense1` and `dense2` name. The only work is naming the operand indices: the contraction index of
  the record is re-indexed by its one coordinate, and at output entry `(r, q)` and position `k` the record's left index
  is `(r, k)` and its right index `(k, q)`.
-/
import proofs.«153978_j61864708932307_1_alg».proof.Proof.Gen.ReferenceIdeal
import proofs.«153978_j61864708932307_1_alg».proof.Proof.Spec
import Idealize.ShloMosaic.Lib.ValueIdx
import Idealize.ShloMosaic.PureOps.Ideal.Laws

noncomputable section

namespace Cert.ReferenceIdeal.RefDense

open Cert.ReferenceIdeal Cert.ReferenceIdeal.Gen Cert.Gcn
open Idealize.ShloMosaic Idealize.ShloMosaic.TcCoe Idealize.SL.Sem

/-! ## Layer one's contraction -/

theorem lhs1_row (i : S50000x256.Idx) (q : dot_S50000x512_S512x256_S50000x256_1_0_0_1_n_n.contr.Idx) :
    (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch by decide), dif_pos (show (0 : Fin S50000x512.rank) ∈ dot_S50000x512_S512x256_S50000x256_1_0_0_1_n_n.lhsNonContracting by decide)]
  rfl
theorem lhs1_pos (i : S50000x256.Idx) (q : dot_S50000x512_S512x256_S50000x256_1_0_0_1_n_n.contr.Idx) :
    (dot_S50000x512_S512x256_S50000x256_1_0_0_1_n_n.lhsIdx i q 1).val = (q ⟨0, by decide⟩).val :=
  dot_S50000x512_S512x256_S50000x256_1_0_0_1_n_n.lhsIdx_val_of_single rfl i q
theorem rhs1_pos (i : S50000x256.Idx) (q : dot_S50000x512_S512x256_S50000x256_1_0_0_1_n_n.contr.Idx) :
    (dot_S50000x512_S512x256_S50000x256_1_0_0_1_n_n.rhsIdx i q 0).val = (q ⟨0, by decide⟩).val :=
  dot_S50000x512_S512x256_S50000x256_1_0_0_1_n_n.rhsIdx_val_of_single rfl i q
theorem rhs1_col (i : S50000x256.Idx) (q : dot_S50000x512_S512x256_S50000x256_1_0_0_1_n_n.contr.Idx) :
    (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch by decide), dif_pos (show (1 : Fin S512x256.rank) ∈ dot_S50000x512_S512x256_S50000x256_1_0_0_1_n_n.rhsNonContracting by decide)]
  rfl

/-- Over the extended reals the host's contraction is the sum over the 512 contraction positions of the operands'
    products: `dense1`. -/
theorem contraction1_eq (x : FVec Ideal S50000x512 .f32) (w : FVec Ideal S512x256 .f32) :
    Host.dotGeneral (F := Ideal) dot_S50000x512_S512x256_S50000x256_1_0_0_1_n_n none x w = dense1 x w := by
  funext i
  simp only [Host.dotGeneral]
  rw [Ideal.dotGeneral_apply, ← Equiv.sum_comp (ValueIdx.contrEquiv1 dot_S50000x512_S512x256_S50000x256_1_0_0_1_n_n 512 rfl rfl).symm]
  unfold dense1
  refine Finset.sum_congr rfl fun k _ => ?_
  have hk := ValueIdx.contrEquiv1_symm_val dot_S50000x512_S512x256_S50000x256_1_0_0_1_n_n 512 rfl rfl k
  have el : dot_S50000x512_S512x256_S50000x256_1_0_0_1_n_n.lhsIdx i ((ValueIdx.contrEquiv1 dot_S50000x512_S512x256_S50000x256_1_0_0_1_n_n 512 rfl rfl).symm k) = featAt1 i k := funext fun a => Fin.ext (by
    match a with
    | ⟨0, _⟩ => exact lhs1_row _ _
    | ⟨1, _⟩ => exact (lhs1_pos _ _).trans hk)
  have er : dot_S50000x512_S512x256_S50000x256_1_0_0_1_n_n.rhsIdx i ((ValueIdx.contrEquiv1 dot_S50000x512_S512x256_S50000x256_1_0_0_1_n_n 512 rfl rfl).symm k) = wgtAt1 i k := funext fun a => Fin.ext (by
    match a with
    | ⟨0, _⟩ => exact (rhs1_pos _ _).trans hk
    | ⟨1, _⟩ => exact rhs1_col _ _)
  rw [el, er]

/-! ## Layer two's contraction -/

theorem lhs2_row (i : S50000x64.Idx) (q : dot_S50000x256_S256x64_S50000x64_1_0_0_1_n_n.contr.Idx) :
    (dot_S50000x256_S256x64_S50000x64_1_0_0_1_n_n.lhsIdx i q 0).val = (i 0).val := by
  unfold DotDims.lhsIdx
  rw [dif_neg (show ¬(0 : Fin S50000x256.rank) ∈ dot_S50000x256_S256x64_S50000x64_1_0_0_1_n_n.lhsBatch by decide), dif_pos (show (0 : Fin S50000x256.rank) ∈ dot_S50000x256_S256x64_S50000x64_1_0_0_1_n_n.lhsNonContracting by decide)]
  rfl
theorem lhs2_pos (i : S50000x64.Idx) (q : dot_S50000x256_S256x64_S50000x64_1_0_0_1_n_n.contr.Idx) :
    (dot_S50000x256_S256x64_S50000x64_1_0_0_1_n_n.lhsIdx i q 1).val = (q ⟨0, by decide⟩).val :=
  dot_S50000x256_S256x64_S50000x64_1_0_0_1_n_n.lhsIdx_val_of_single rfl i q
theorem rhs2_pos (i : S50000x64.Idx) (q : dot_S50000x256_S256x64_S50000x64_1_0_0_1_n_n.contr.Idx) :
    (dot_S50000x256_S256x64_S50000x64_1_0_0_1_n_n.rhsIdx i q 0).val = (q ⟨0, by decide⟩).val :=
  dot_S50000x256_S256x64_S50000x64_1_0_0_1_n_n.rhsIdx_val_of_single rfl i q
theorem rhs2_col (i : S50000x64.Idx) (q : dot_S50000x256_S256x64_S50000x64_1_0_0_1_n_n.contr.Idx) :
    (dot_S50000x256_S256x64_S50000x64_1_0_0_1_n_n.rhsIdx i q 1).val = (i 1).val := by
  unfold DotDims.rhsIdx
  rw [dif_neg (show ¬(1 : Fin S256x64.rank) ∈ dot_S50000x256_S256x64_S50000x64_1_0_0_1_n_n.rhsBatch by decide), dif_pos (show (1 : Fin S256x64.rank) ∈ dot_S50000x256_S256x64_S50000x64_1_0_0_1_n_n.rhsNonContracting by decide)]
  rfl

/-- Over the extended reals the host's contraction is the sum over the 256 contraction positions of the operands'
    products: `dense2`. -/
theorem contraction2_eq (x : FVec Ideal S50000x256 .f32) (w : FVec Ideal S256x64 .f32) :
    Host.dotGeneral (F := Ideal) dot_S50000x256_S256x64_S50000x64_1_0_0_1_n_n none x w = dense2 x w := by
  funext i
  simp only [Host.dotGeneral]
  rw [Ideal.dotGeneral_apply, ← Equiv.sum_comp (ValueIdx.contrEquiv1 dot_S50000x256_S256x64_S50000x64_1_0_0_1_n_n 256 rfl rfl).symm]
  unfold dense2
  refine Finset.sum_congr rfl fun k _ => ?_
  have hk := ValueIdx.contrEquiv1_symm_val dot_S50000x256_S256x64_S50000x64_1_0_0_1_n_n 256 rfl rfl k
  have el : dot_S50000x256_S256x64_S50000x64_1_0_0_1_n_n.lhsIdx i ((ValueIdx.contrEquiv1 dot_S50000x256_S256x64_S50000x64_1_0_0_1_n_n 256 rfl rfl).symm k) = featAt2 i k := funext fun a => Fin.ext (by
    match a with
    | ⟨0, _⟩ => exact lhs2_row _ _
    | ⟨1, _⟩ => exact (lhs2_pos _ _).trans hk)
  have er : dot_S50000x256_S256x64_S50000x64_1_0_0_1_n_n.rhsIdx i ((ValueIdx.contrEquiv1 dot_S50000x256_S256x64_S50000x64_1_0_0_1_n_n 256 rfl rfl).symm k) = wgtAt2 i k := funext fun a => Fin.ext (by
    match a with
    | ⟨0, _⟩ => exact (rhs2_pos _ _).trans hk
    | ⟨1, _⟩ => exact rhs2_col _ _)
  rw [el, er]

end Cert.ReferenceIdeal.RefDense

end
-- ==== Proof.Network.lean ====
/-
  The two programs compute one function of their arguments.

  `network` is that function over the extended reals: layer one's dense transform of the features, its aggregation
  over the graph (self-loops, degrees, the symmetric normalisation, gather, scale, scatter-add), the bias, the
  rectification; layer two's dense transform of that, the same aggregation, its bias; the row-wise log-softmax.

  The kernel's program reaches it in three host stretches around two tiled products: each product is the dense
  transform of the arrays it finds (ten row blocks of one sum each), and the narrowing to the 16-bit format the kernel
  applies to each product's operands is the identity on extended reals. The reference reaches it in one straight line
  whose two contractions are the same sums. Everything else — the aggregation and the log-softmax — is the same text
  in both programs and is never opened. No law of arithmetic is used beyond reading both products as the same sum,
  so the finiteness of the inputs is not needed.
-/
import proofs.«153978_j61864708932307_1_alg».proof.Defs
import proofs.«153978_j61864708932307_1_alg».proof.Proof.KernelRun
import proofs.«153978_j61864708932307_1_alg».proof.Proof.Dense1
import proofs.«153978_j61864708932307_1_alg».proof.Proof.Dense2
import proofs.«153978_j61864708932307_1_alg».proof.Proof.HostValue
import proofs.«153978_j61864708932307_1_alg».proof.Proof.RefValue
import proofs.«153978_j61864708932307_1_alg».proof.Proof.RefDense
import proofs.«153978_j61864708932307_1_alg».proof.Proof.Gen.Kernel.Frame
import proofs.«153978_j61864708932307_1_alg».proof.Proof.Gen.Pre_finite_inputs

set_option maxRecDepth 16384

noncomputable section

namespace Cert.Proof.Network

open Idealize.ShloMosaic Idealize.ShloMosaic.TcCoe Idealize.SL.Sem
open Cert.Gcn Cert.ReferenceIdeal.Pieces

/-- The two-layer graph network over the extended reals, as one function of its six arguments. -/
def network (x : FVec Ideal ⟨2, ![50000, 512]⟩ .f32) (e : IVec ⟨2, ![2, 800000]⟩ 32)
    (w1 : FVec Ideal ⟨2, ![512, 256]⟩ .f32) (b1 : FVec Ideal ⟨1, ![256]⟩ .f32)
    (w2 : FVec Ideal ⟨2, ![256, 64]⟩ .f32) (b2 : FVec Ideal ⟨1, ![64]⟩ .f32) : FVec Ideal ⟨2, ![50000, 64]⟩ .f32 :=
  logSoftmax (F := Ideal) (aggregate2 (F := Ideal)
    (dense2 (layer1 (F := Ideal) (dense1 x w1) (srcOf (F := Ideal) e) (dstOf (F := Ideal) e) b1) w2)
    (srcOf (F := Ideal) e) (dstOf (F := Ideal) e) b2)

/-- Narrowing to the 16-bit format is the identity on extended reals. -/
theorem narrow_id {s : Shape} (v : s.Idx → EReal) (h : FTy.bf16.bits < FTy.f32.bits) :
    (truncf (F := Ideal) (φ := .f32) .bf16 v h : s.Idx → EReal) = v := rfl

/-- The first call's result array: layer one's dense transform of the launch features and weights. -/
theorem first_call_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.dat0 (Cert.KernelIdeal.Gen.V1 m ρ) c).arrAt 2 Cert.KernelIdeal.cfg0.N = dense1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  obtain ⟨f4, f5⟩ := Cert.KernelIdeal.HostValue.first_operands (F := Ideal) m ρ c
  rw [Cert.KernelIdeal.Dense1.array_eq (Cert.KernelIdeal.Gen.V1 m ρ) c, f4, f5, narrow_id, narrow_id]

/-- The second call's result array: layer two's dense transform of layer one's output and the launch weights. -/
theorem second_call_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (Cert.KernelIdeal.Gen.dat1 (Cert.KernelIdeal.Gen.V7 m ρ) c).arrAt 2 Cert.KernelIdeal.cfg1.N
      = dense2 (layer1 (F := Ideal) (dense1 (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (srcOf (F := Ideal) (m ((c.tc : Thread Cert.KernelIdeal.nD Cert.KernelIdeal.τ).loc Cert.KernelIdeal.main_arg1))) (dstOf (F := Ideal) (m ((c.tc : Thread Cert.KernelIdeal.nD Cert.KernelIdeal.τ).loc Cert.KernelIdeal.main_arg1))) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) := by
  obtain ⟨s50, s51⟩ := Cert.KernelIdeal.HostValue.second_operands (F := Ideal) m ρ c
  rw [Cert.KernelIdeal.Dense2.array_eq (Cert.KernelIdeal.Gen.V7 m ρ) c, s50, s51, narrow_id, narrow_id, first_call_value m ρ c]

/-- The kernel's program leaves `network` of its launch arguments in its result buffer. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W12 m ρ c (Proc.devRef .tc Cert.KernelIdeal.main_v95)
      = network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.HostValue.result_fold, second_call_value m ρ c]
  unfold network
  rfl

/-- The reference's result term is `network` of its launch arguments. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.RefValue.result (F := Ideal) m' c
      = network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := by
  have e1 := Cert.ReferenceIdeal.RefDense.contraction1_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))
  have e2 := Cert.ReferenceIdeal.RefDense.contraction2_eq
    (layer1 (F := Ideal) (dense1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (srcOf (F := Ideal) (m' ((c.tc : Thread Cert.ReferenceIdeal.nD Cert.ReferenceIdeal.τ).loc Cert.ReferenceIdeal.main_arg1))) (dstOf (F := Ideal) (m' ((c.tc : Thread Cert.ReferenceIdeal.nD Cert.ReferenceIdeal.τ).loc Cert.ReferenceIdeal.main_arg1))) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg4))
  unfold Cert.ReferenceIdeal.RefValue.result network
  rw [e1, e2]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealisation rewrote nothing: the kernel's own text read over the extended reals. -/
theorem preserves : Cert.preserves_Kernel_KernelIdeal := trivial

/-- From memories agreeing on the arguments both programs end with `network` of those arguments in their result. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.KernelIdeal.Launched.run_result (F := Ideal) m ρ)
  · refine (θ_run Cert.ReferenceIdeal.defs _ _).mono (fun r h c => ⟨(h c).1.trans ?_, (h c).2⟩)
      (Cert.ReferenceIdeal.RefValue.run (F := Ideal) m' ρ')
    rw [reference_value, (hagree c).1, (hagree c).2.1, (hagree c).2.2.1, (hagree c).2.2.2.1, (hagree c).2.2.2.2.1, (hagree c).2.2.2.2.2]

end Cert.Proof.Network

end
-- ==== Proof.lean ====
/-
  The certificate of a two-layer graph convolution network whose two dense transforms run as tiled kernels (ten row
  blocks of 5000 rows, 16-bit operands, a zero accumulator) against a reference that contracts each in one host
  operation. Over the extended reals both programs compute `Cert.Proof.Network.network` of their six arguments:
  Proof/Spec.lean states the two dense transforms, Proof/Dense1.lean and Proof/Dense2.lean show the kernel's tiled
  products are them, Proof/RefDense.lean the reference's contractions, Proof/HostValue.lean and Proof/RefValue.lean read
  the host operations around them (the same text in both programs, cut into named pieces in Proof/RefPieces.lean), and
  Proof/Network.lean joins the two sides and states the five claims.
-/
import proofs.«153978_j61864708932307_1_alg».proof.Defs
import proofs.«153978_j61864708932307_1_alg».proof.Proof.Gen.Kernel
import proofs.«153978_j61864708932307_1_alg».proof.Proof.Gen.KernelIdeal
import proofs.«153978_j61864708932307_1_alg».proof.Proof.Gen.ReferenceIdeal
import proofs.«153978_j61864708932307_1_alg».proof.Proof.Gen.Pre_finite_inputs
import proofs.«153978_j61864708932307_1_alg».proof.Proof.Network

noncomputable section

namespace Cert.Proof

theorem claim : Cert.Claim :=
  ⟨Cert.Kernel.Gen.facts, Cert.KernelIdeal.Gen.facts, Cert.ReferenceIdeal.Gen.facts, Cert.Pre_finite_inputs.Gen.facts,
    Network.frame_kernel, Network.frame_kernelIdeal, Network.frame_referenceIdeal, Network.preserves, Network.algebraic⟩

end Cert.Proof

end
